-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)) →
    ∃ (v0 : (c : Dev Cert.KernelIdeal.nD) → Buf (Elt Ideal) ((c.tc : Thread Cert.KernelIdeal.nD Cert.KernelIdeal.τ).loc Cert.KernelIdeal.main_v0)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v0) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v2) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8192 : Shape := ⟨1, ![8192]⟩
abbrev S8192x8192 : Shape := ⟨2, ![8192, 8192]⟩
abbrev S_ : Shape := ⟨0, ![]⟩

class Facts : Prop where
  bcast_S_S8192 : S_.BroadcastsInDim S8192 (![] : Fin 0 → Fin S8192.rank)
  reducesTo_S8192_S_d0 : S8192.ReducesTo [0] S_
  h_S_ : 0 < S_.numel
  bcast_S_S8192x8192 : S_.BroadcastsInDim S8192x8192 (![] : Fin 0 → Fin S8192x8192.rank)
  reducesTo_S8192x8192_S_d0_1 : S8192x8192.ReducesTo [0, 1] S_

variable [Facts]

def fn {F : FTy → Type} [FloatOps F] (main_arg0 : FVec F S8192 .f32) (main_arg1 : FVec F S8192x8192 .f32) : IVec S_ 1 :=
  let main_v0 : FVec F S8192 .f32 := Host.absf main_arg0
  let main_cst : FVec F S_ .f32 := constant S_ .f32 0x7F800000#32
  let main_v1 : FVec F S8192 .f32 := broadcastInDim S8192 ![] bcast_S_S8192 main_cst
  let main_v2 : IVec S8192 1 := cmpf .olt main_v0 main_v1
  let main_c : IVec S_ 1 := constantI S_ 1 1#1
  let main_v3 : IVec S_ 1 := (fun x v => Host.reduce IntOp.andi x v reducesTo_S8192_S_d0 h_S_) main_v2 main_c
  let main_v4 : FVec F S8192x8192 .f32 := Host.absf main_arg1
  let main_cst_0 : FVec F S_ .f32 := constant S_ .f32 0x7F800000#32
  let main_v5 : FVec F S8192x8192 .f32 := broadcastInDim S8192x8192 ![] bcast_S_S8192x8192 main_cst_0
  let main_v6 : IVec S8192x8192 1 := cmpf .olt main_v4 main_v5
  let main_c_1 : IVec S_ 1 := constantI S_ 1 1#1
  let main_v7 : IVec S_ 1 := (fun x v => Host.reduce IntOp.andi x v reducesTo_S8192x8192_S_d0_1 h_S_) main_v6 main_c_1
  let main_v8 : IVec S_ 1 := andi main_v3 main_v7
  main_v8
-- ==== Kernel.lean ====
abbrev S8192 : Shape := ⟨1, ![8192]⟩
abbrev S8192x8192 : Shape := ⟨2, ![8192, 8192]⟩
abbrev S8192x1 : Shape := ⟨2, ![8192, 1]⟩
abbrev S256x1 : Shape := ⟨2, ![256, 1]⟩
abbrev S256x8192 : Shape := ⟨2, ![256, 8192]⟩

abbrev nBuf : Space → Nat
  | .hbm => 4
  | .vmem => 6
  | .smem => 0
  | _ => 0

abbrev bufTy : (tb : Table) → Fin (tcTables nBuf tb) → BufTy
  | .hbm, ⟨0, _⟩ => ⟨S8192, .f32⟩
  | .hbm, ⟨1, _⟩ => ⟨S8192x8192, .f32⟩
  | .hbm, ⟨2, _⟩ => ⟨S8192x1, .f32⟩
  | .hbm, ⟨3, _⟩ => ⟨S8192x8192, .f32⟩
  | .local _ .vmem, ⟨0, _⟩ => ⟨S256x1, .f32⟩
  | .local _ .vmem, ⟨1, _⟩ => ⟨S256x1, .f32⟩
  | .local _ .vmem, ⟨2, _⟩ => ⟨S256x8192, .f32⟩
  | .local _ .vmem, ⟨3, _⟩ => ⟨S256x8192, .f32⟩
  | .local _ .vmem, ⟨4, _⟩ => ⟨S256x8192, .f32⟩
  | .local _ .vmem, ⟨5, _⟩ => ⟨S256x8192, .f32⟩
  | _, _ => ⟨S8192, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | _, _ => false

abbrev semScoped : Fin 0 → Bool
  | ⟨_, h⟩ => absurd h (Nat.not_lt_zero _)

abbrev dmaSemScoped : Fin 6 → Bool
  | ⟨0, _⟩ => true
  | ⟨1, _⟩ => true
  | ⟨2, _⟩ => true
  | ⟨3, _⟩ => true
  | ⟨4, _⟩ => true
  | ⟨5, _⟩ => true
  | _ => false

abbrev sig : RefSig :=
  ofTc nBuf bufTy 0 6 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_call0_v0 : Ref sig .tc := ⟨.hbm, 2, rfl⟩
abbrev main_v0 : Ref sig .tc := ⟨.hbm, 3, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5

abbrev nD : Nat := 1
abbrev τ : Topo := Topo.v7x

variable {F : FTy → Type} [FloatOps F]

abbrev grid0 : Pipeline.Grid := ⟨1, ![32], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S256x1 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S256x8192 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S256x8192 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

class Facts₀ : Prop where
  shapeCasts_S8192_S8192x1 : S8192.ShapeCasts S8192x1
  inb_S256x1_S256x1_0_0 : ∀ a, (![0, 0] : Fin 2 → Nat) a + S256x1.size a ≤ S256x1.size a
  h_S256x1 : 0 < S256x1.numel
  shapeCasts_S256x1_S256x1 : S256x1.ShapeCasts S256x1
  inb_S256x8192_S256x8192_0_0 : ∀ a, (![0, 0] : Fin 2 → Nat) a + S256x8192.size a ≤ S256x8192.size a
  h_S256x8192 : 0 < S256x8192.numel
  broadcasts_S256x1_S256x8192 : S256x1.Broadcasts S256x8192
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S256x1.size a ≤ S8192x1.size a
  hwx0_0 : ∀ i : grid0.Coords, EltTy.bits .f32 = 32 ∨ (Rect.block (s := S8192x1) S256x1.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S256x8192.size a ≤ S8192x8192.size a
  hwx0_1 : ∀ i : grid0.Coords, EltTy.bits .f32 = 32 ∨ (Rect.block (s := S8192x8192) S256x8192.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S256x8192.size a ≤ S8192x8192.size a
  hwx0_2 : ∀ i : grid0.Coords, EltTy.bits .f32 = 32 ∨ (Rect.block (s := S8192x8192) S256x8192.size (cc0_transform_2 i) (hinb0_2 i)).WholeWords (EltTy.packing .f32)

variable [Facts₀]

abbrev win0_0 : Pipeline.Window sig grid0 :=
  Pipeline.Window.ofSpec (Memref.whole main_call0_v0) S256x1.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg1) S256x8192.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v0) S256x8192.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

class Facts : Prop extends Facts₀ where

variable [Facts]
-- ==== ReferenceIdeal.lean ====
abbrev S8192 : Shape := ⟨1, ![8192]⟩
abbrev S8192x8192 : Shape := ⟨2, ![8192, 8192]⟩
abbrev S8192x1 : Shape := ⟨2, ![8192, 1]⟩

abbrev nBuf : Space → Nat
  | .hbm => 5
  | .vmem => 0
  | .smem => 0
  | _ => 0

abbrev bufTy : (tb : Table) → Fin (tcTables nBuf tb) → BufTy
  | .hbm, ⟨0, _⟩ => ⟨S8192, .f32⟩
  | .hbm, ⟨1, _⟩ => ⟨S8192x8192, .f32⟩
  | .hbm, ⟨2, _⟩ => ⟨S8192x1, .f32⟩
  | .hbm, ⟨3, _⟩ => ⟨S8192x8192, .f32⟩
  | .hbm, ⟨4, _⟩ => ⟨S8192x8192, .f32⟩
  | _, _ => ⟨S8192, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_v0 : Ref sig .tc := ⟨.hbm, 2, rfl⟩
abbrev main_v1 : Ref sig .tc := ⟨.hbm, 3, rfl⟩
abbrev main_v2 : Ref sig .tc := ⟨.hbm, 4, rfl⟩

abbrev nD : Nat := 1
abbrev τ : Topo := Topo.v7x

variable {F : FTy → Type} [FloatOps F]

class Facts₀ : Prop where
  bcast_S8192_S8192x1_0 : S8192.BroadcastsInDim S8192x1 (![0] : Fin 1 → Fin S8192x1.rank)
  bcast_S8192x1_S8192x8192_0_1 : S8192x1.BroadcastsInDim S8192x8192 (![0, 1] : Fin 2 → Fin S8192x8192.rank)

variable [Facts₀]

class Facts : Prop extends Facts₀ where

variable [Facts]
-- ==== Proof.RowScale.lean ====
/-
  The function both programs compute: an [8192, 8192] array `b` with row `r` multiplied through by entry `r` of an
  [8192] vector `a`, that is diag(a) · b. At index (r, k) it is the single product a r * b (r, k): no sum, no
  constant, so the statement is the same at every float instance and no law of the extended reals is needed.
-/
import Idealize.ShloMosaic.PureOps.Ideal
import Idealize.ShloMosaic.Lib.ValueIdx

noncomputable section

namespace Cert.RowScale

open Idealize.ShloMosaic Idealize.ShloMosaic.ValueIdx

variable {F : FTy → Type} [FloatOps F]

/-- Row `r` of `b` scaled by `a r`: the entry at (r, k) is `a r * b (r, k)`. -/
def rowScale (a : (⟨1, ![8192]⟩ : Shape).Idx → Elt F .f32) (b : (⟨2, ![8192, 8192]⟩ : Shape).Idx → Elt F .f32) :
    (⟨2, ![8192, 8192]⟩ : Shape).Idx → Elt F .f32 :=
  fun i => FloatOps.mulf (a (ix1 (n := 8192) (i 0))) (b i)

theorem rowScale_apply (a : (⟨1, ![8192]⟩ : Shape).Idx → Elt F .f32) (b : (⟨2, ![8192, 8192]⟩ : Shape).Idx → Elt F .f32)
    (i : (⟨2, ![8192, 8192]⟩ : Shape).Idx) : rowScale a b i = FloatOps.mulf (a (ix1 (n := 8192) (i 0))) (b i) := rfl

end Cert.RowScale

end
-- ==== Proof.ReferenceRows.lean ====
/-
  The reference, a[:, None] * b, is the row scale: its two broadcasts ([8192] to an [8192, 1] column, the column along
  the second axis to [8192, 8192]) put a r at every (r, k), and the multiply is entrywise.
-/
import proofs.«161466_j25056839205361_1_alg».proof.Proof.Gen.ReferenceIdeal.Read
import proofs.«161466_j25056839205361_1_alg».proof.Proof.RowScale

noncomputable section

namespace Cert.ReferenceIdeal.Rows

open Cert.ReferenceIdeal Cert.ReferenceIdeal.Read Cert.RowScale Idealize.ShloMosaic Idealize.ShloMosaic.ValueIdx

variable {F : FTy → Type} [FloatOps F]

/-- Through both broadcasts, index (r, k) of the broadcast array comes from entry r of the vector. -/
theorem row_of_index (i : S8192x8192.Idx) : idx_main_v0 (idx_main_v1 i) = ix1 (n := 8192) (i 0) :=
  funext fun d => match d with | ⟨0, _⟩ => rfl

/-- The reference's result, as a function of its two arguments, is the row scale. -/
theorem result_eq (a : (⟨S8192, .f32⟩ : BufTy).Contents (Elt F)) (b : (⟨S8192x8192, .f32⟩ : BufTy).Contents (Elt F)) :
    val_main_v2 (F := F) a b = rowScale a b := by
  funext i
  rw [val_main_v2_apply, val_main_v1_apply, val_main_v0_apply, row_of_index, rowScale_apply]

end Cert.ReferenceIdeal.Rows

end
-- ==== Proof.LibColumn.lean ====
/-
  Column forms of the keep-dimension layout operations, read at an index: a vector of `a` entries reshaped to
  an `[a, 1]` column holds, in row `i`, entry `i`; and an `[a, 1]` column broadcast along the second axis to
  `[a, b]` holds, at `(p, c)`, the column's entry of row `p`, whatever `c`. (The row forms `[a] → [1, a]` and
  `[1, b] → [a, b]` are the library's `shapeCast_a_1a_apply` and `broadcastTo_1b_ab_apply`.) Stated for every
  extent and every element type.
-/
import Idealize.ShloMosaic.Lib.Pipeline.Value
import Idealize.ShloMosaic.Lib.ValueIdx
import Idealize.ShloMosaic.Lib.ValueLayout

namespace Cert.LibColumn

open Idealize.ShloMosaic Idealize.ShloMosaic.ValueIdx

variable {α : Type}

/-- An `[a]` array cast to `[a, 1]` reads, at `(i, u)`, the operand at `i`, whatever the unit coordinate `u`. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An `[a, 1]` column broadcast to `[a, b]` reads, at `(p, c)`, the column's entry of row `p`. -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Cert.LibColumn
-- ==== Proof.KernelRows.lean ====
/-
  The kernel's result array is the row scale of its arguments.

  The kernel first lays the [8192] vector out as an [8192, 1] column; its grid then walks the 32 bands of 256 rows.
  At band t the body holds rows 256 t … 256 t + 255 of the column and of the matrix, spreads each column entry along
  its row and multiplies entrywise, so what it writes back at (p, k) of the band is (column at row 256 t + p) times
  (matrix at (256 t + p, k)): band t of the row scale. The 32 bands are disjoint and every row r lies in band r / 256,
  so together they fill the array.
-/
import proofs.«161466_j25056839205361_1_alg».proof.Proof.Gen.KernelIdeal.Value
import proofs.«161466_j25056839205361_1_alg».proof.Proof.RowScale
import proofs.«161466_j25056839205361_1_alg».proof.Proof.LibColumn
import Idealize.ShloMosaic.Lib.Pipeline.Value
import Idealize.ShloMosaic.Lib.StableHlo.Run

noncomputable section

namespace Cert.KernelIdeal.Rows

open Cert.KernelIdeal Cert.KernelIdeal.Gen Cert.KernelIdeal.Value Cert.RowScale
open Idealize.ShloMosaic Idealize.ShloMosaic.TcCoe Idealize.ShloMosaic.ValueIdx Idealize.SL.Sem
open Idealize.ShloMosaic.Pipeline (Dat)

variable {F : FTy → Type} [FloatOps F]
variable (m : (ℓ : Loc nD τ sig) → Buf (Elt F) ℓ) (ρ : Dev nD → PrngReg)

theorem zero_offsets : (![0, 0] : Fin 2 → Nat) = fun _ => 0 := funext fun a => by fin_cases a <;> rfl

/-! ## One band -/

/-- What the body leaves in its output band from a [256, 1] column band `x` and a [256, 8192] matrix band `y`:
    at (p, k) the product of the column's row p with the matrix's (p, k). -/
theorem band_apply (x : Vec F S256x1 .f32) (y : Vec F S256x8192 .f32) (j : S256x8192.Idx) :
    out0_2 x y j = FloatOps.mulf (x (ix2 (n0 := 256) (n1 := 1) (j 0) 0)) (y j) := by
  have e0 : ix2_0 j = ix2 (n0 := 256) (n1 := 1) (j 0) 0 :=
    funext fun a => match a with | ⟨0, _⟩ => rfl | ⟨1, _⟩ => rfl
  have e1 : ix2_1 j = j := funext fun a => match a with | ⟨0, _⟩ => rfl | ⟨1, _⟩ => rfl
  unfold out0_2
  rw [canon2_eq]
  show FloatOps.mulf (View.ld x r0_0 (ix2_0 j)) (View.ld y r0_1 (ix2_1 j)) = _
  rw [View.ld_unit_zero (S := S256x1) zero_offsets, View.ld_unit_zero (S := S256x8192) zero_offsets, e0, e1]

/-! ## The column the region finds -/

/-- Before the region the vector argument is reshaped to an [8192, 1] column. -/
theorem column_eq (c : Dev nD) :
    (V m c main_call0_v0 : S8192x1.Idx → Elt F .f32)
      = shapeCast S8192x1 (m ((c : Thread nD τ).loc main_arg0)) shapeCasts_S8192_S8192x1 := by
  dsimp only [V, hostOps0]
  after_results
  rfl

/-- Row r of that column is entry r of the vector. -/
theorem column_apply (c : Dev nD) (k : S8192x1.Idx) :
    (V m c main_call0_v0 : S8192x1.Idx → Elt F .f32) k
      = (m ((c : Thread nD τ).loc main_arg0) : S8192.Idx → Elt F .f32) (ix1 (n := 8192) (k 0)) := by
  obtain ⟨p, u, rfl⟩ : ∃ (p : Fin 8192) (u : Fin 1), k = ix2 p u := ⟨k 0, k 1, eq_ix2 k⟩
  rw [column_eq]
  exact Cert.LibColumn.shapeCast_a_a1_apply _ _ p u

/-! ## What band t writes back -/

/-- The printed index maps over the 32 grid points: all three windows sit at band t, column block 0. -/
theorem band_index : ∀ t : Fin cfg0.N,
    win0_0.index t (0 : Fin 2) = t.val ∧ win0_1.index t (0 : Fin 2) = t.val ∧ win0_1.index t (1 : Fin 2) = 0
      ∧ win0_2.index t (0 : Fin 2) = t.val ∧ win0_2.index t (1 : Fin 2) = 0 :=
  (by decide +kernel : ∀ t : Fin grid0.N, _)

/-- Grid point t writes back band t of the row scale of the arguments. -/
theorem flushed_eq (c : Dev nD) (t : Fin cfg0.N) :
    (dats m 0 c).flushed 2 t
      = ((cfg0.win 2).blk t).view.read (Elt F)
          (rowScale (m ((c : Thread nD τ).loc main_arg0)) (m ((c : Thread nD τ).loc main_arg1))) := by
  rw [flushed2]
  obtain ⟨h0, h1, h1', h2, h2'⟩ := band_index t
  funext j
  refine (band_apply (iblk m c 0 t) (iblk m c 1 t) j).trans ?_
  show FloatOps.mulf (V m c main_call0_v0 (((cfg0.win 0).blk t).view.emb (ix2 (n0 := 256) (n1 := 1) (j 0) 0)))
      (V m c main_arg1 (((cfg0.win 1).blk t).view.emb j))
    = FloatOps.mulf ((m ((c : Thread nD τ).loc main_arg0) : S8192.Idx → Elt F .f32) (ix1 (n := 8192) ((((cfg0.win 2).blk t).view.emb j) 0)))
      ((m ((c : Thread nD τ).loc main_arg1) : S8192x8192.Idx → Elt F .f32) (((cfg0.win 2).blk t).view.emb j))
  have hrow : ix1 (n := 8192) ((((cfg0.win 0).blk t).view.emb (ix2 (n0 := 256) (n1 := 1) (j 0) 0)) 0)
      = ix1 (n := 8192) ((((cfg0.win 2).blk t).view.emb j) 0) := by
    refine congrArg (ix1 (n := 8192)) (Fin.ext ?_)
    show win0_0.index t (0 : Fin 2) * 256 + 1 * (j 0).val = win0_2.index t (0 : Fin 2) * 256 + 1 * (j 0).val
    omega
  have hmat : ((cfg0.win 1).blk t).view.emb j = ((cfg0.win 2).blk t).view.emb j := by
    funext a; apply Fin.ext
    match a with
    | ⟨0, _⟩ => show win0_1.index t (0 : Fin 2) * 256 + 1 * (j 0).val = win0_2.index t (0 : Fin 2) * 256 + 1 * (j 0).val; omega
    | ⟨1, _⟩ => show win0_1.index t (1 : Fin 2) * 8192 + 1 * (j 1).val = win0_2.index t (1 : Fin 2) * 8192 + 1 * (j 1).val; omega
  rw [column_apply, hrow, hmat, V_main_arg1]

/-! ## The bands fill the array -/

/-- An index of the array lies in band t exactly when each coordinate is in the band's range on its axis. -/
theorem mem_band (t : Fin cfg0.N) (i : S8192x8192.Idx) :
    i ∈ ((cfg0.win 2).blk t).view.set
      ↔ ∀ a : Fin 2, win0_2.index t a * S256x8192.size a ≤ (i a).val
          ∧ (i a).val < win0_2.index t a * S256x8192.size a + S256x8192.size a := by
  show i ∈ ((View.whole main_v0).slice (win0_2.rect t)).set ↔ _
  rw [View.set_slice_whole, Rect.mem_set_unit]
  exact Iff.rfl

/-- Every index (r, k) lies in the band of the point r / 256, which is written back. -/
theorem bands_cover (i : S8192x8192.Idx) :
    ∃ t : Fin cfg0.N, (cfg0.win 2).flush t = true ∧ i ∈ ((cfg0.win 2).blk t).view.set := by
  have hr : (i 0).val < 8192 := (i 0).isLt
  have hk : (i 1).val < 8192 := (i 1).isLt
  have hN : cfg0.N = 32 := N_0
  let t : Fin cfg0.N := ⟨(i 0).val / 256, by rw [hN]; omega⟩
  obtain ⟨-, -, -, h2, h2'⟩ := band_index t
  have ht : t.val = (i 0).val / 256 := rfl
  refine ⟨t, flush0_2 t, ?_⟩
  rw [mem_band]
  intro a
  match a with
  | ⟨0, _⟩ =>
    show win0_2.index t (0 : Fin 2) * 256 ≤ (i 0).val ∧ (i 0).val < win0_2.index t (0 : Fin 2) * 256 + 256
    omega
  | ⟨1, _⟩ =>
    show win0_2.index t (1 : Fin 2) * 8192 ≤ (i 1).val ∧ (i 1).val < win0_2.index t (1 : Fin 2) * 8192 + 8192
    omega

/-- So after the run the result array is the row scale of the arguments. -/
theorem final_eq (c : Dev nD) :
    (dats m 0 c).arrAt 2 cfg0.N
      = rowScale (m ((c : Thread nD τ).loc main_arg0)) (m ((c : Thread nD τ).loc main_arg1)) :=
  (dats m 0 c).arrAt_eq_of_cover 2
    (rowScale (m ((c : Thread nD τ).loc main_arg0)) (m ((c : Thread nD τ).loc main_arg1)))
    (fun t _ => flushed_eq m c t) bands_cover

/-- Every weakly fair execution ends with the result array at the row scale and the arguments unchanged. -/
theorem run : θ_run defs (onTc (τ := τ) (main (F := F))) ⟨m, fun _ => 0, ρ⟩ fun r => ∀ c : Dev nD,
      r.2.mem ((c : Thread nD τ).loc main_v0)
          = rowScale (m ((c : Thread nD τ).loc main_arg0)) (m ((c : Thread nD τ).loc main_arg1))
      ∧ r.2.mem ((c : Thread nD τ).loc main_arg0) = m ((c : Thread nD τ).loc main_arg0)
      ∧ r.2.mem ((c : Thread nD τ).loc main_arg1) = m ((c : Thread nD τ).loc main_arg1) :=
  (θ_run defs _ _).mono (fun r h c => ⟨(h c).1.trans (final_eq m c), (h c).2⟩) (run_blocks m ρ)

end Cert.KernelIdeal.Rows

end
-- ==== Proof.lean ====
/-
  diag(a) · b against a[:, None] * b, for a of 8192 entries and b of 8192 by 8192.

  Both programs end with the result array at the row scale of their arguments (Proof/RowScale.lean): the entry at
  (r, k) is a r * b (r, k). The kernel reaches it band by band (Proof/KernelRows.lean: 32 bands of 256 rows, band t
  holding rows 256 t … 256 t + 255 of the reshaped column and of the matrix); the reference reaches it through two
  broadcasts and one entrywise multiply (Proof/ReferenceRows.lean). The two results are the same single product at every
  index, so no law of the extended reals and no finiteness of the inputs is used. The idealization rewrote nothing,
  so its conjunct is trivial. The three frames are the programs' runs with the value dropped.
-/
import proofs.«161466_j25056839205361_1_alg».proof.Defs
import proofs.«161466_j25056839205361_1_alg».proof.Proof.Gen.Kernel
import proofs.«161466_j25056839205361_1_alg».proof.Proof.Gen.Kernel.Skeleton
import proofs.«161466_j25056839205361_1_alg».proof.Proof.Gen.Kernel.Launch
import proofs.«161466_j25056839205361_1_alg».proof.Proof.Gen.Kernel.Points
import proofs.«161466_j25056839205361_1_alg».proof.Proof.Gen.Kernel.Frame
import proofs.«161466_j25056839205361_1_alg».proof.Proof.Gen.KernelIdeal
import proofs.«161466_j25056839205361_1_alg».proof.Proof.Gen.KernelIdeal.Skeleton
import proofs.«161466_j25056839205361_1_alg».proof.Proof.Gen.KernelIdeal.Launch
import proofs.«161466_j25056839205361_1_alg».proof.Proof.Gen.KernelIdeal.Points
import proofs.«161466_j25056839205361_1_alg».proof.Proof.Gen.KernelIdeal.Frame
import proofs.«161466_j25056839205361_1_alg».proof.Proof.Gen.ReferenceIdeal
import proofs.«161466_j25056839205361_1_alg».proof.Proof.Gen.Pre_finite_inputs
import proofs.«161466_j25056839205361_1_alg».proof.Proof.Gen.KernelIdeal.Value
import proofs.«161466_j25056839205361_1_alg».proof.Proof.Gen.ReferenceIdeal.Run
import proofs.«161466_j25056839205361_1_alg».proof.Proof.Gen.ReferenceIdeal.Read
import proofs.«161466_j25056839205361_1_alg».proof.Proof.RowScale
import proofs.«161466_j25056839205361_1_alg».proof.Proof.ReferenceRows
import proofs.«161466_j25056839205361_1_alg».proof.Proof.KernelRows
import Idealize.ShloMosaic.Adequacy
import Idealize.ShloMosaic.Init

noncomputable section

namespace Cert.Proof

open Idealize.ShloMosaic Idealize.SL.Sem Cert.Kernel

/-- The reference runs and leaves its arguments as they were: its run with the result dropped. -/
theorem frame_reference : Cert.frame_ReferenceIdeal := fun m ρ _ =>
  (θ_run Cert.ReferenceIdeal.defs _ _).mono (fun _ h c => (h c).2) (Cert.ReferenceIdeal.Value.run (F := Ideal) m ρ)

/-- From memories that agree on a and b, the kernel's result array and the reference's both end at the row scale of
    a and b. -/
theorem algebraic : Cert.algebraic_KernelIdeal_ReferenceIdeal := by
  intro m ρ m' ρ' _ hagree
  refine ⟨fun c => Cert.RowScale.rowScale (m ((c.tc : Thread Cert.KernelIdeal.nD Cert.KernelIdeal.τ).loc Cert.KernelIdeal.main_arg0))
      (m ((c.tc : Thread Cert.KernelIdeal.nD Cert.KernelIdeal.τ).loc Cert.KernelIdeal.main_arg1)),
    Cert.KernelIdeal.Rows.run (F := Ideal) m ρ, ?_⟩
  refine (θ_run Cert.ReferenceIdeal.defs _ _).mono (fun _ h c => ⟨(h c).1.trans ?_, (h c).2⟩)
    (Cert.ReferenceIdeal.Value.run (F := Ideal) m' ρ')
  rw [Cert.ReferenceIdeal.Read.val_main_v2_eq, Cert.ReferenceIdeal.Rows.result_eq, (hagree c).1, (hagree c).2]

theorem claim : Cert.Claim :=
  ⟨Cert.Kernel.Gen.facts, Cert.KernelIdeal.Gen.facts, Cert.ReferenceIdeal.Gen.facts, Cert.Pre_finite_inputs.Gen.facts,
    fun m ρ _ => Cert.Kernel.Gen.frame m ρ,
    fun m ρ _ => Cert.KernelIdeal.Gen.frame m ρ,
    frame_reference,
    trivial,
    algebraic⟩

end Cert.Proof

end
